-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S128x128 : Shape := ⟨2, ![128, 128]⟩
abbrev S128x1 : Shape := ⟨2, ![128, 1]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_

variable [Facts]

def fn {F : FTy → Type} [FloatOps F] (main_arg0 : FVec F S1048576x128 .f32) (main_arg1 : FVec F S128x128 .f32) (main_arg2 : FVec F S128x1 .f32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x1 .f32 := Host.absf main_arg2
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  main_v13
-- ==== Kernel.lean ====
abbrev S1048576x128 : Shape := ⟨2, ![1048576, 128]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S8192x128 : Shape := ⟨2, ![8192, 128]⟩

abbrev nBuf : Space → Nat
  | .hbm => 7
  | .vmem => 6
  | .smem => 0
  | _ => 0

abbrev bufTy : (tb : Table) → Fin (tcTables nBuf tb) → BufTy
  | .hbm, ⟨0, _⟩ => ⟨S1048576x128, .f32⟩
  | .hbm, ⟨1, _⟩ => ⟨S128x128, .f32⟩
  | .hbm, ⟨2, _⟩ => ⟨S128x1, .f32⟩
  | .hbm, ⟨3, _⟩ => ⟨S128x128, .f32⟩
  | .hbm, ⟨4, _⟩ => ⟨S128, .f32⟩
  | .hbm, ⟨5, _⟩ => ⟨S1x128, .f32⟩
  | .hbm, ⟨6, _⟩ => ⟨S1048576x128, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S1x128, .f32⟩
  | .local _ .vmem, ⟨4, _⟩ => ⟨S8192x128, .f32⟩
  | .local _ .vmem, ⟨5, _⟩ => ⟨S8192x128, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x128_S128x128_1_0 : S128x128.Transposes [1, 0] S128x128
  shapeCasts_S128x1_S128 : S128x1.ShapeCasts S128
  bcast_S128_S1x128_1 : S128.BroadcastsInDim S1x128 (![1] : Fin 1 → Fin S1x128.rank)
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1048576x128.size a
  hwx0_0 : ∀ i : grid0.Coords, EltTy.bits .f32 = 32 ∨ (Rect.block (s := S1048576x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S1048576x128.size a
  hwx0_3 : ∀ i : grid0.Coords, EltTy.bits .f32 = 32 ∨ (Rect.block (s := S1048576x128) S8192x128.size (cc0_transform_3 i) (hinb0_3 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576x128 : Shape := ⟨2, ![1048576, 128]⟩
abbrev S128x128 : Shape := ⟨2, ![128, 128]⟩
abbrev S128x1 : Shape := ⟨2, ![128, 1]⟩
abbrev S128 : Shape := ⟨1, ![128]⟩
abbrev S1x128 : Shape := ⟨2, ![1, 128]⟩

abbrev nBuf : Space → Nat
  | .hbm => 8
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S128x128, .f32⟩
  | .hbm, ⟨2, _⟩ => ⟨S128x1, .f32⟩
  | .hbm, ⟨3, _⟩ => ⟨S1048576x128, .f32⟩
  | .hbm, ⟨4, _⟩ => ⟨S128, .f32⟩
  | .hbm, ⟨5, _⟩ => ⟨S1x128, .f32⟩
  | .hbm, ⟨6, _⟩ => ⟨S1048576x128, .f32⟩
  | .hbm, ⟨7, _⟩ => ⟨S1048576x128, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  shapeCasts_S128x1_S128 : S128x1.ShapeCasts S128
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  dot_S1048576x128_S128x128_S1048576x128_1_1_0_0_n_n_wf : DotDims.WF S1048576x128 S128x128 S1048576x128 [1] [1] [0] [0] [] []

variable [Facts₀]

def dot_S1048576x128_S128x128_S1048576x128_1_1_0_0_n_n : DotDims S1048576x128 S128x128 S1048576x128 where
  lhsContracting := [1]
  rhsContracting := [1]
  lhsNonContracting := [0]
  rhsNonContracting := [0]
  lhsBatch := []
  rhsBatch := []
  wf := dot_S1048576x128_S128x128_S1048576x128_1_1_0_0_n_n_wf

class Facts : Prop extends Facts₀ where

variable [Facts]
-- ==== Proof.Dense.lean ====
/-
  The function both programs compute, stated once over the argument arrays and read index by index:
  the entry in row `r`, column `o` is the inner product of row `r` of `x` with row `o` of `W`, plus the
  bias of output `o`, on the extended reals. The sum is over the 128 input features; nothing else is
  reduced, and no entry of the result depends on any other row of `x`.
-/
import Idealize.ShloMosaic.PureOps.Ideal
import Idealize.ShloMosaic.Lib.ValueIdx

noncomputable section

open scoped BigOperators

namespace Cert.Dense

open Idealize.ShloMosaic Idealize.ShloMosaic.ValueIdx

/-- The batch of rows, the weight matrix (one row per output feature) and the bias column. -/
abbrev Rows : Shape := ⟨2, ![1048576, 128]⟩
abbrev Weights : Shape := ⟨2, ![128, 128]⟩
abbrev BiasCol : Shape := ⟨2, ![128, 1]⟩

/-- `dense x W b (r, o) = Σ_k x (r, k) · W (o, k) + b (o, 0)`. -/
def dense (x : Rows.Idx → EReal) (W : Weights.Idx → EReal) (b : BiasCol.Idx → EReal) : Rows.Idx → EReal :=
  fun i => (∑ k : Fin 128, x (ix2 (i 0) k) * W (ix2 (i 1) k)) + b (ix2 (i 1) (0 : Fin 1))

/-- The same, at explicit coordinates. -/
theorem dense_ix2 (x : Rows.Idx → EReal) (W : Weights.Idx → EReal) (b : BiasCol.Idx → EReal)
    (r : Fin 1048576) (o : Fin 128) :
    dense x W b (ix2 r o) = (∑ k : Fin 128, x (ix2 r k) * W (ix2 o k)) + b (ix2 o (0 : Fin 1)) := rfl

end Cert.Dense

end
-- ==== Proof.RefDense.lean ====
/-
  The reference, read one operation at a time, is `dense`: its `dot_general` contracts axis 1 of `x` against
  axis 1 of `W`, so its entry (r, o) is Σ_k x (r, k) · W (o, k); the bias column is reshaped to a vector,
  laid along axis 1 of a one-row matrix and that row repeated down all rows, so the addend at (r, o) is
  b (o, 0). Only the spelling of the indices differs from `dense`.
-/
import proofs.«103440_j33002528703049_1_alg».proof.Proof.Gen.ReferenceIdeal.Read
import proofs.«103440_j33002528703049_1_alg».proof.Proof.Dense

noncomputable section

open scoped BigOperators

namespace Cert.RefDense

open Cert.ReferenceIdeal Cert.ReferenceIdeal.Gen Cert.ReferenceIdeal.Read
open Idealize.ShloMosaic Idealize.ShloMosaic.ValueIdx

/-- The left factor's index: row of the output entry, feature `k`. -/
theorem lidx_eq (i : S1048576x128.Idx) (k : Fin 128) : lidx_main_v0 i k = ix2 (i 0) k :=
  funext fun a => Fin.ext (by match a with | ⟨0, _⟩ => rfl | ⟨1, _⟩ => rfl)

/-- The right factor's index: the weight row of the output entry's column, feature `k`. -/
theorem ridx_eq (i : S1048576x128.Idx) (k : Fin 128) : ridx_main_v0 i k = ix2 (i 1) k :=
  funext fun a => Fin.ext (by match a with | ⟨0, _⟩ => rfl | ⟨1, _⟩ => rfl)

/-- Through the two broadcasts and the reshape, entry (r, o) reads the bias column at (o, 0). -/
theorem bias_idx_eq (i : S1048576x128.Idx) :
    idx_main_v1 (idx_main_v2 (idx_main_v3 i)) = ix2 (i 1) (0 : Fin 1) :=
  funext fun a => Fin.ext (by
    match a with
    | ⟨0, _⟩ => show (i 1).val / 1 = (i 1).val; omega
    | ⟨1, _⟩ => rfl)

/-- The reference's result term, at the extended reals, is `dense` of its arguments. -/
theorem reference_eq (x : (⟨S1048576x128, .f32⟩ : BufTy).Contents (Elt Ideal))
    (W : (⟨S128x128, .f32⟩ : BufTy).Contents (Elt Ideal)) (b : (⟨S128x1, .f32⟩ : BufTy).Contents (Elt Ideal)) :
    val_main_v4 (F := Ideal) x W b = Cert.Dense.dense x W b := by
  funext i
  rw [val_main_v4_apply, val_main_v0_apply, val_main_v3_apply, val_main_v2_apply, val_main_v1_apply, bias_idx_eq]
  simp only [lidx_eq, ridx_eq]
  rfl

end Cert.RefDense

end
-- ==== Proof.BlockProduct.lean ====
/-
  What the kernel body stores, read at one entry of its block. The body multiplies the 8192 × 128 block of
  rows by the 128 × 128 matrix it is handed (features down, outputs across) into a zero accumulator, and adds
  the one-row bias repeated down the block. At the extended reals the two narrowings to bf16 are the
  identity and the zero accumulator adds nothing, so entry (p, q) is Σ_k rows (p, k) · mat (k, q) + bias (0, q).
-/
import proofs.«103440_j33002528703049_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockProduct

open Cert.KernelIdeal Cert.KernelIdeal.Gen
open Idealize.ShloMosaic Idealize.ShloMosaic.ValueIdx

/-! The product's dimension numbers: the left operand contracts its axis 1 and keeps axis 0 as the
    result's rows; the right operand contracts its axis 0 and keeps axis 1 as the result's columns. -/

theorem lhs_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhs_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhs_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhs_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The block product into the zero accumulator, at entry (p, q): the sum over the 128 features. -/
theorem product_apply (l : FVec Ideal S8192x128 .bf16) (r : FVec Ideal S128x128 .bf16) (p : Fin 8192) (q : Fin 128) :
    matmul (F := Ideal) dot_S8192x128_S128x128_S8192x128_1_0_0_1_n_n none l r (constant S8192x128 .f32 0x00000000#32) (ix2 p q)
      = ∑ k : Fin 128, l (ix2 p k) * r (ix2 k q) := by
  simp only [matmul]
  rw [Ideal.matmul_constant_zero_apply, ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 p q) ((contrEquiv1 dot_S8192x128_S128x128_S8192x128_1_0_0_1_n_n 128 rfl rfl).symm k) = ix2 p k := funext fun a => Fin.ext (by
    match a with
    | ⟨0, _⟩ => exact lhs_0 _ _
    | ⟨1, _⟩ => exact (lhs_1 _ _).trans hk)
  have er : dot_S8192x128_S128x128_S8192x128_1_0_0_1_n_n.rhsIdx (ix2 p q) ((contrEquiv1 dot_S8192x128_S128x128_S8192x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The stored value at entry (p, q) of the block. -/
theorem stored_apply (rows : Vec Ideal S8192x128 .f32) (mat : Vec Ideal S128x128 .f32) (bias : Vec Ideal S1x128 .f32)
    (p : Fin 8192) (q : Fin 128) :
    k0_pay1 (F := Ideal) rows mat bias (ix2 p q)
      = (∑ k : Fin 128, rows (ix2 p k) * mat (ix2 k q)) + bias (ix2 (0 : Fin 1) q) := by
  unfold k0_pay1
  rw [addf_apply, product_apply, broadcastTo_1b_ab_apply, shapeCast_self, shapeCast_self]
  rfl

end Cert.KernelIdeal.BlockProduct

end
-- ==== Proof.HostPrefix.lean ====
/-
  What the region finds in the two arrays the host writes before it. The weight matrix is transposed
  (features down, outputs across), so its entry (k, o) is W (o, k); the bias column is reshaped to a vector
  and laid along axis 1 of a one-row matrix, so that row's entry (0, o) is b (o, 0).
-/
import proofs.«103440_j33002528703049_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostPrefix

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The transposed weights, as a term of the launch contents. -/
theorem transposed_eq (c : Dev nD) :
    (V m c main_v0 : S128x128.Idx → Elt F .f32)
      = transpose S128x128 [1, 0] (m ((c : Thread nD τ).loc main_arg1)) transposes_S128x128_S128x128_1_0 := by
  dsimp only [Gen.V, Gen.hostOps0]; after_results <;> rfl

/-- The bias as one row, as a term of the launch contents. -/
theorem bias_row_eq (c : Dev nD) :
    (V m c main_v2 : S1x128.Idx → Elt F .f32)
      = broadcastInDim S1x128 ![1] bcast_S128_S1x128_1
          (shapeCast S128 (m ((c : Thread nD τ).loc main_arg2)) shapeCasts_S128x1_S128) := by
  dsimp only [Gen.V, Gen.hostOps0]; after_results <;> rfl

/-- Entry (k, o) of the transposed weights is W (o, k). -/
theorem transposed_apply (c : Dev nD) (k o : Fin 128) :
    (V m c main_v0 : S128x128.Idx → Elt F .f32) (ix2 k o) = m ((c : Thread nD τ).loc main_arg1) (ix2 o k) := by
  rw [transposed_eq]
  exact transpose_ix2_apply _ _ k o

/-- Entry (0, o) of the bias row is b (o, 0). -/
theorem bias_row_apply (c : Dev nD) (o : Fin 128) :
    (V m c main_v2 : S1x128.Idx → Elt F .f32) (ix2 (0 : Fin 1) o)
      = m ((c : Thread nD τ).loc main_arg2) (ix2 o (0 : Fin 1)) := by
  rw [bias_row_eq]
  refine (broadcastInDim_apply _ bcast_S128_S1x128_1 _ (ix2 (0 : Fin 1) o) (ix1 o) (fun a => match a with
    | ⟨0, _⟩ => by show o.val = if (128 : Nat) = 1 then 0 else o.val; rw [if_neg (by decide)])).trans ?_
  exact shapeCast_apply _ shapeCasts_S128x1_S128 (ix1 o) (ix2 o (0 : Fin 1))
    (by rw [Shape.rowMajor_val_two, Shape.rowMajor_val_one]; show o.val * 1 + 0 = o.val; omega)

end Cert.KernelIdeal.HostPrefix

end
-- ==== Proof.WholeArray.lean ====
/-
  From blocks to the whole result. Grid point `t` is handed rows 8192·t … 8192·t + 8191 of `x`, the whole
  transposed weight matrix and the whole bias row, and writes back rows 8192·t … 8192·t + 8191 of the result.
  Each entry it writes is `dense` of the launch contents at that entry's place in the array; the 128 blocks
  are disjoint and together hold every row, so after the run the array is `dense` everywhere.
-/
import proofs.«103440_j33002528703049_1_alg».proof.Proof.Gen.KernelIdeal.Value
import proofs.«103440_j33002528703049_1_alg».proof.Proof.Dense
import proofs.«103440_j33002528703049_1_alg».proof.Proof.BlockProduct
import proofs.«103440_j33002528703049_1_alg».proof.Proof.HostPrefix

set_option maxRecDepth 16384

noncomputable section

open scoped BigOperators

namespace Cert.KernelIdeal.WholeArray

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The block indices over the grid: the rows' window and the result's window are at block `t` of axis 0 at point `t`;
    the weights and the bias row stay at their one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- `dense` of the launch contents on core `c`. -/
abbrev result (c : Dev nD) : S1048576x128.Idx → EReal :=
  Cert.Dense.dense (m ((c : Thread nD τ).loc main_arg0)) (m ((c : Thread nD τ).loc main_arg1)) (m ((c : Thread nD τ).loc main_arg2))

/-! ## The blocks the body is handed, read at an entry -/

/-- Entry (p, k) of the rows' block at point `t` is `x` at row 8192·t + p, feature `k`: no host operation writes `x`. -/
theorem rows_block (c : Dev nD) (t : Fin cfg0.N) (p : Fin 8192) (k : Fin 128) (r : Fin 1048576)
    (hr : r.val = t.val * 8192 + p.val) :
    (iblk m c 0 t : Vec Ideal S8192x128 .f32) (ix2 p k) = (m ((c : Thread nD τ).loc main_arg0)) (ix2 r k) := by
  obtain ⟨e0, e1, -⟩ := block_indices t
  unfold iblk
  rw [View.read_apply]
  show V m c main_arg0 _ = _
  rw [V_main_arg0]
  congr 1
  funext a
  apply Fin.ext
  match a with
  | ⟨0, _⟩ => show win0_0.index t (0 : Fin 2) * 8192 + 1 * p.val = r.val; rw [e0, hr]; omega
  | ⟨1, _⟩ => show win0_0.index t (1 : Fin 2) * 128 + 1 * k.val = k.val; rw [e1]; omega

/-- Entry (k, o) of the matrix the body multiplies by, at every point, is W (o, k): the window is the whole transposed matrix. -/
theorem weights_block (c : Dev nD) (t : Fin cfg0.N) (k o : Fin 128) :
    (iblk m c 1 t : Vec Ideal S128x128 .f32) (ix2 k o) = (m ((c : Thread nD τ).loc main_arg1)) (ix2 o k) := by
  obtain ⟨-, -, e0, e1, -⟩ := block_indices t
  unfold iblk
  rw [View.read_apply]
  show (V m c main_v0 : S128x128.Idx → Elt Ideal .f32) _ = _
  refine Eq.trans (congrArg _ ?_) (HostPrefix.transposed_apply m c k o)
  funext a
  apply Fin.ext
  match a with
  | ⟨0, _⟩ => show win0_1.index t (0 : Fin 2) * 128 + 1 * k.val = k.val; rw [e0]; omega
  | ⟨1, _⟩ => show win0_1.index t (1 : Fin 2) * 128 + 1 * o.val = o.val; rw [e1]; omega

/-- Entry (0, o) of the bias row the body is handed, at every point, is b (o, 0). -/
theorem bias_block (c : Dev nD) (t : Fin cfg0.N) (o : Fin 128) :
    (iblk m c 2 t : Vec Ideal S1x128 .f32) (ix2 (0 : Fin 1) o) = (m ((c : Thread nD τ).loc main_arg2)) (ix2 o (0 : Fin 1)) := by
  obtain ⟨-, -, -, -, e0, e1, -⟩ := block_indices t
  unfold iblk
  rw [View.read_apply]
  show (V m c main_v2 : S1x128.Idx → Elt Ideal .f32) _ = _
  refine Eq.trans (congrArg _ ?_) (HostPrefix.bias_row_apply m c o)
  funext a
  apply Fin.ext
  match a with
  | ⟨0, _⟩ => show win0_2.index t (0 : Fin 2) * 1 + 1 * 0 = 0; rw [e0]
  | ⟨1, _⟩ => show win0_2.index t (1 : Fin 2) * 128 + 1 * o.val = o.val; rw [e1]; omega

/-- Entry (p, q) of the result's block at point `t` sits at row 8192·t + p, column `q` of the array. -/
theorem place (t : Fin cfg0.N) (p : Fin 8192) (q : Fin 128) (r : Fin 1048576) (hr : r.val = t.val * 8192 + p.val) :
    ((cfg0.win 3).blk t).view.emb (ix2 p q) = (ix2 r q : S1048576x128.Idx) := by
  obtain ⟨-, -, -, -, -, -, e0, e1⟩ := block_indices t
  funext a
  apply Fin.ext
  match a with
  | ⟨0, _⟩ => show win0_3.index t (0 : Fin 2) * 8192 + 1 * p.val = r.val; rw [e0, hr]; omega
  | ⟨1, _⟩ => show win0_3.index t (1 : Fin 2) * 128 + 1 * q.val = q.val; rw [e1]; omega

/-! ## What a point writes back -/

/-- What point `t` writes back is block `t` of `result`: the block product's sum over the features is the inner product of
    row 8192·t + p of `x` with row `q` of `W` once the transposed matrix is read back as `W`, and the bias row's entry is `b (q, 0)`. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero origin]
  simp only [View.ld_unit_zero (S := S8192x128) origin, View.ld_unit_zero (S := S128x128) origin, View.ld_unit_zero (S := S1x128) origin]
  funext j
  show k0_pay1 (F := Ideal) (iblk m c 0 t) (iblk m c 1 t) (iblk m c 2 t) j = result m c (((cfg0.win 3).blk t).view.emb j)
  obtain ⟨p, q, rfl⟩ : ∃ (p : Fin 8192) (q : Fin 128), j = ix2 p q := ⟨j 0, j 1, eq_ix2 j⟩
  have ht : t.val < 128 := lt_of_lt_of_eq t.isLt N_0
  have hr : t.val * 8192 + p.val < 1048576 := by have := p.isLt; omega
  rw [place t p q ⟨_, hr⟩ rfl]
  refine ((BlockProduct.stored_apply (iblk m c 0 t) (iblk m c 1 t) (iblk m c 2 t) p q).trans ?_).trans
    (Cert.Dense.dense_ix2 (m ((c : Thread nD τ).loc main_arg0)) (m ((c : Thread nD τ).loc main_arg1)) (m ((c : Thread nD τ).loc main_arg2)) ⟨_, hr⟩ q).symm
  refine congrArg₂ (· + ·) (Finset.sum_congr rfl fun k _ => ?_) (bias_block m c t q)
  rw [rows_block m c t p k ⟨_, hr⟩ rfl, weights_block m c t k q]

/-! ## Every row is written -/

/-- An index of the array is in point `t`'s block iff each coordinate is in the block's range on its axis. -/
theorem mem_block (t : Fin cfg0.N) (i : S1048576x128.Idx) :
    i ∈ ((cfg0.win 3).blk t).view.set ↔ ∀ a : Fin 2, win0_3.index t a * S8192x128.size a ≤ (i a).val ∧ (i a).val < win0_3.index t a * S8192x128.size a + S8192x128.size a := by
  show i ∈ ((View.whole main_v3).slice (win0_3.rect t)).set ↔ _
  rw [View.set_slice_whole, Rect.mem_set_unit]
  exact Iff.rfl

/-- Row `r` is written by point `r / 8192`. -/
theorem every_row_written (i : S1048576x128.Idx) :
    ∃ t : Fin cfg0.N, (cfg0.win 3).flush t = true ∧ i ∈ ((cfg0.win 3).blk t).view.set := by
  have hi0 : (i 0).val < 1048576 := (i 0).isLt
  have hi1 : (i 1).val < 128 := (i 1).isLt
  have hN : (i 0).val / 8192 < cfg0.N := by rw [show cfg0.N = 128 from N_0]; omega
  refine ⟨⟨(i 0).val / 8192, hN⟩, flush0_3 _, ?_⟩
  rw [mem_block]
  obtain ⟨-, -, -, -, -, -, e0, e1⟩ := block_indices ⟨(i 0).val / 8192, hN⟩
  intro a
  match a with
  | ⟨0, _⟩ =>
    show win0_3.index ⟨(i 0).val / 8192, hN⟩ (0 : Fin 2) * 8192 ≤ (i 0).val ∧ (i 0).val < win0_3.index ⟨(i 0).val / 8192, hN⟩ (0 : Fin 2) * 8192 + 8192
    rw [e0]
    show (i 0).val / 8192 * 8192 ≤ (i 0).val ∧ (i 0).val < (i 0).val / 8192 * 8192 + 8192
    omega
  | ⟨1, _⟩ =>
    show win0_3.index ⟨(i 0).val / 8192, hN⟩ (1 : Fin 2) * 128 ≤ (i 1).val ∧ (i 1).val < win0_3.index ⟨(i 0).val / 8192, hN⟩ (1 : Fin 2) * 128 + 128
    rw [e1]
    omega

/-! ## The array after the run -/

/-- After the run the result's array is `result`. -/
theorem final (c : Dev nD) : (dats m 0 c).arrAt 3 cfg0.N = result m c :=
  (dats m 0 c).arrAt_eq_of_cover 3 (result m c) (fun t _ => flushed_eq m c t) every_row_written

/-- The kernel's run: every weakly fair execution ends with the result array at `dense` of the launch contents,
    the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.KernelIdeal.WholeArray

end
-- ==== Proof.lean ====
/-
  A dense layer over a batch of 1048576 rows of 128 features: out (r, o) = Σ_k x (r, k) · W (o, k) + b (o, 0).

  The kernel walks the batch in 128 blocks of 8192 rows. For each block it multiplies the rows by the weight
  matrix, which the host has transposed beforehand (features down, outputs across), accumulating from zero,
  and adds the bias, which the host has laid out as one row. The reference contracts the feature axis of `x`
  against the feature axis of `W` in one product over the whole batch and adds the same bias row repeated
  down all rows.

  On the extended reals the kernel's narrowing of both factors to bf16 is the identity and its zero accumulator
  adds nothing, so an entry of a block is the same sum of 128 products as the reference's entry at that row and
  column; the transposed matrix read at (k, o) is `W` at (o, k). The sum is never regrouped and nothing is
  distributed or cancelled, so the equality holds at infinite entries too and the finiteness of the inputs is
  not used. The 128 blocks are disjoint and hold every row, so the whole arrays agree.

  `Dense` states the function; `RefDense` reads the reference as it; `BlockProduct` reads the kernel body's
  stored value at an entry; `HostPrefix` reads the two arrays the host prepares; `WholeArray` goes from blocks to
  the array and restates the kernel's run.
-/
import proofs.«103440_j33002528703049_1_alg».proof.Defs
import proofs.«103440_j33002528703049_1_alg».proof.Proof.Gen.Kernel
import proofs.«103440_j33002528703049_1_alg».proof.Proof.Gen.Kernel.Frame
import proofs.«103440_j33002528703049_1_alg».proof.Proof.Gen.KernelIdeal
import proofs.«103440_j33002528703049_1_alg».proof.Proof.Gen.KernelIdeal.Frame
import proofs.«103440_j33002528703049_1_alg».proof.Proof.Gen.KernelIdeal.Value
import proofs.«103440_j33002528703049_1_alg».proof.Proof.Gen.ReferenceIdeal
import proofs.«103440_j33002528703049_1_alg».proof.Proof.Gen.ReferenceIdeal.Run
import proofs.«103440_j33002528703049_1_alg».proof.Proof.Gen.ReferenceIdeal.Read
import proofs.«103440_j33002528703049_1_alg».proof.Proof.Gen.Pre_finite_inputs
import proofs.«103440_j33002528703049_1_alg».proof.Proof.RefDense
import proofs.«103440_j33002528703049_1_alg».proof.Proof.WholeArray
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is five host operations in a row: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with `dense` of the arguments: the kernel block by block, the reference operation by operation;
    the arguments agree, so the two results are one array. -/
theorem algebraic : Cert.algebraic_KernelIdeal_ReferenceIdeal := by
  intro m ρ m' ρ' _ hagree
  refine ⟨fun c => Cert.KernelIdeal.WholeArray.result m c, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.RefDense.reference_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
